-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S1024x4096 : Shape := ⟨2, ![1024, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S4096x4096 .f32) (main_arg1 : FVec F S1024x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  main_v8
-- ==== Kernel.lean ====
abbrev S4096x4096 : Shape := ⟨2, ![4096, 4096]⟩
abbrev S1024x4096 : Shape := ⟨2, ![1024, 4096]⟩
abbrev S4096x1024 : Shape := ⟨2, ![4096, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩
abbrev S1024 : Shape := ⟨1, ![1024]⟩
abbrev S1x1024 : Shape := ⟨2, ![1, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S1024x4096, .f32⟩
  | .hbm, ⟨2, _⟩ => ⟨S4096x1024, .f32⟩
  | .local _ .vmem, ⟨0, _⟩ => ⟨S256x4096, .f32⟩
  | .local _ .vmem, ⟨1, _⟩ => ⟨S256x4096, .f32⟩
  | .local _ .vmem, ⟨2, _⟩ => ⟨S1024x4096, .f32⟩
  | .local _ .vmem, ⟨3, _⟩ => ⟨S256x1024, .f32⟩
  | .local _ .vmem, ⟨4, _⟩ => ⟨S256x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x4096_S256x4096_0_0 : ∀ a, (![0, 0] : Fin 2 → Nat) a + S256x4096.size a ≤ S256x4096.size a
  h_S256x4096 : 0 < S256x4096.numel
  inb_S1024x4096_S1024x4096_0_0 : ∀ a, (![0, 0] : Fin 2 → Nat) a + S1024x4096.size a ≤ S1024x4096.size a
  h_S1024x4096 : 0 < S1024x4096.numel
  reduces_S256x4096_S256 : S256x4096.Reduces [1] S256
  shapeCasts_S256_S256x1 : S256.ShapeCasts S256x1
  reduces_S1024x4096_S1024 : S1024x4096.Reduces [1] S1024
  shapeCasts_S1024_S1x1024 : S1024.ShapeCasts S1x1024
  bitsLt_bf16_f32 : FTy.bits .bf16 < FTy.bits .f32
  transposes_S1024x4096_p1_0_S4096x1024 : S1024x4096.Transposes [1, 0] S4096x1024
  broadcasts_S256x1_S256x1024 : S256x1.Broadcasts S256x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .f32 = 32 ∨ (Rect.block (s := S1024x4096) S1024x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)

variable [Facts₀]

def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x1024 : Shape := ⟨2, ![1, 1024]⟩
abbrev S4096x1024 : Shape := ⟨2, ![4096, 1024]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1024x4096, .f32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S1024x4096, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  reducesTo_S1024x4096_S1024_d1 : S1024x4096.ReducesTo [1] S1024
  bcast_S1024_S1x1024_1 : S1024.BroadcastsInDim S1x1024 (![1] : Fin 1 → Fin S1x1024.rank)
  bcast_S_S4096x1024 : S_.BroadcastsInDim S4096x1024 (![] : Fin 0 → Fin S4096x1024.rank)
  bcast_S4096x1_S4096x1024_0_1 : S4096x1.BroadcastsInDim S4096x1024 (![0, 1] : Fin 2 → Fin S4096x1024.rank)
  bcast_S1x1024_S4096x1024_0_1 : S1x1024.BroadcastsInDim S4096x1024 (![0, 1] : Fin 2 → Fin S4096x1024.rank)
  dot_S4096x4096_S1024x4096_S4096x1024_1_1_0_0_n_n_wf : DotDims.WF S4096x4096 S1024x4096 S4096x1024 [1] [1] [0] [0] [] []

variable [Facts₀]

def dot_S4096x4096_S1024x4096_S4096x1024_1_1_0_0_n_n : DotDims S4096x4096 S1024x4096 S4096x1024 where
  lhsContracting := [1]
  rhsContracting := [1]
  lhsNonContracting := [0]
  rhsNonContracting := [0]
  lhsBatch := []
  rhsBatch := []
  wf := dot_S4096x4096_S1024x4096_S4096x1024_1_1_0_0_n_n_wf

class Facts : Prop extends Facts₀ where

variable [Facts]
-- ==== Proof.Distance.lean ====
/-
  The function both programs compute, and the scalar law that joins their two spellings of it.

  For x : [4096, 4096] and W : [1024, 4096] over the extended reals, the entry (b, c) of the result is the negated
  mean, over the 4096 coordinates, of the squared distance between row b of x and row c of W, in the expanded form

      -( ‖x_b‖² - 2 · ⟨x_b, W_c⟩ + ‖W_c‖² ) / 4096 ,

  where ‖x_b‖² = ∑ₖ x(b,k)², ‖W_c‖² = ∑ₖ W(c,k)² and ⟨x_b, W_c⟩ = ∑ₖ x(b,k) · W(c,k).

  One program negates by subtracting from zero and then multiplies by the f32 word of 2⁻¹²; the other negates and then
  divides by the f32 word of 4096. The word of 2⁻¹² is a power of two, so it denotes the rational 1/4096 exactly, and on
  the extended reals 0 - y = -y and y / 4096 = y · (1/4096) hold for every y, the infinities included: the two
  spellings agree with no condition on the inputs. The factor 2 is the same word in both programs and is never evaluated.
-/
import Idealize.ShloMosaic.PureOps.Ideal
import Idealize.ShloMosaic.PureOps.Ideal.Laws
import Idealize.ShloMosaic.Lib.ValueIdx

noncomputable section

namespace Cert.Distance

open Idealize.ShloMosaic Idealize.ShloMosaic.ValueIdx

/-! ## The two literals whose values matter -/

/-- The f32 word of 4096.0 denotes the real 4096. -/
theorem ofBits_4096 : Ideal.ofBits .f32 0x45800000#32 = ((4096 : ℝ) : EReal) := by
  simp [Ideal.ofBits, Ideal.ieee, -EReal.coe_mul]; norm_num

/-- The f32 word of 2⁻¹² denotes the real 1/4096: a power of two, so the word holds it exactly. -/
theorem ofBits_inv4096 : Ideal.ofBits .f32 0x39800000#32 = ((1 / 4096 : ℝ) : EReal) := by
  simp [Ideal.ofBits, Ideal.ieee, -EReal.coe_mul]; norm_num

/-- The factor 2, kept as its word: both programs spell the same one. -/
abbrev two : EReal := Ideal.ofBits .f32 0x40000000#32

/-! ## The function -/

/-- The squared length of row `r` of a matrix with 4096 columns: ∑ₖ A(r,k)². -/
def sqLen {n : Nat} (A : (⟨2, ![n, 4096]⟩ : Shape).Idx → EReal) (r : Fin n) : EReal :=
  ∑ k : Fin 4096, A (ix2 r k) * A (ix2 r k)

/-- The inner product of row `b` of `x` with row `c` of `W`: ∑ₖ x(b,k) · W(c,k). -/
def inner {n r : Nat} (x : (⟨2, ![n, 4096]⟩ : Shape).Idx → EReal) (W : (⟨2, ![r, 4096]⟩ : Shape).Idx → EReal)
    (b : Fin n) (c : Fin r) : EReal :=
  ∑ k : Fin 4096, x (ix2 b k) * W (ix2 c k)

/-- The expanded squared distance ‖x_b‖² - 2·⟨x_b, W_c⟩ + ‖W_c‖², grouped as both programs group it. -/
def sqDist {n r : Nat} (x : (⟨2, ![n, 4096]⟩ : Shape).Idx → EReal) (W : (⟨2, ![r, 4096]⟩ : Shape).Idx → EReal)
    (b : Fin n) (c : Fin r) : EReal :=
  (sqLen x b - two * inner x W b c) + sqLen W c

/-- The result array for `n` rows of `x` against `r` rows of `W`: at (b, c), minus the squared distance of row b of x
    from row c of W, over 4096. The whole result is this at n = 4096, r = 1024; a block of 256 rows of it is this
    at n = 256. -/
def negMeanSqDist {n r : Nat} (x : (⟨2, ![n, 4096]⟩ : Shape).Idx → EReal) (W : (⟨2, ![r, 4096]⟩ : Shape).Idx → EReal) :
    (⟨2, ![n, r]⟩ : Shape).Idx → EReal :=
  fun i => Ideal.div (-(sqDist x W (i 0) (i 1))) ((4096 : ℝ) : EReal)

/-- An entry depends only on one row of each matrix: two pairs of matrices whose rows in question agree coordinate by
    coordinate give the same entry. (A block of rows of `x` against all of `W` is the corresponding rows of the whole result.) -/
theorem negMeanSqDist_congr {n n' r r' : Nat}
    (x : (⟨2, ![n, 4096]⟩ : Shape).Idx → EReal) (W : (⟨2, ![r, 4096]⟩ : Shape).Idx → EReal)
    (x' : (⟨2, ![n', 4096]⟩ : Shape).Idx → EReal) (W' : (⟨2, ![r', 4096]⟩ : Shape).Idx → EReal)
    (b : Fin n) (c : Fin r) (b' : Fin n') (c' : Fin r')
    (hx : ∀ k : Fin 4096, x (ix2 b k) = x' (ix2 b' k)) (hW : ∀ k : Fin 4096, W (ix2 c k) = W' (ix2 c' k)) :
    negMeanSqDist x W (ix2 b c) = negMeanSqDist x' W' (ix2 b' c') := by
  show Ideal.div (-(sqDist x W b c)) _ = Ideal.div (-(sqDist x' W' b' c')) _
  unfold sqDist sqLen inner
  simp only [hx, hW]

/-! ## The scalar law -/

/-- Subtracting from the zero word and multiplying by the word of 2⁻¹² is negating and dividing by 4096, for every
    extended real: 0 - y = -y, and a quotient by a nonzero real is the product with its reciprocal. -/
theorem zero_sub_mul_inv4096 (y : EReal) :
    (Ideal.ofBits .f32 0x00000000#32 - y) * Ideal.ofBits .f32 0x39800000#32
      = Ideal.div (-y) ((4096 : ℝ) : EReal) := by
  rw [Ideal.ofBits_zero_f32, zero_sub, ofBits_inv4096, Ideal.div_coe (by norm_num : (4096 : ℝ) ≠ 0)]

/-- Adding a sum to the zero word leaves the sum: the initial value of each program's reductions. -/
theorem zero_word_add (s : EReal) : Ideal.ofBits .f32 0x00000000#32 + s = s := by
  rw [Ideal.ofBits_zero_f32, zero_add]

end Cert.Distance

end
-- ==== Proof.RefDistance.lean ====
/-
  The reference computes the negated mean squared distance.

  Its twenty host operations, read one at a time at an index (b, c) of the result: the row sums ∑ₖ x(b,k)² and
  ∑ₖ W(c,k)², each started from the zero word and carried to (b, c) by two broadcasts (a column [4096, 1] and a row
  [1, 1024], then the full [4096, 1024]); the product of the rows as the sum ∑ₖ x(b,k) · W(c,k) over the one contracted
  axis; then, pointwise, the difference with twice the product, the sum with the other row's squared length, the
  negation, and the quotient by the word of 4096. The index each broadcast and each sum reads its operand at is (b, k)
  or (c, k) written with coordinates; the zero words vanish and the divisor's word is the real 4096.
-/
import proofs.«119320_j10290741641835_1_alg».proof.Proof.Gen.ReferenceIdeal.Read
import proofs.«119320_j10290741641835_1_alg».proof.Proof.Distance

noncomputable section

namespace Cert.ReferenceIdeal.RefValue

open Cert.ReferenceIdeal Cert.ReferenceIdeal.Read Idealize.ShloMosaic Idealize.ShloMosaic.ValueIdx Cert.Distance

/-! ## Where each stage reads its operand -/

/-- The row sum of x carried to (b, c) reads x at (b, k). -/
theorem idx_rowx (i : S4096x1024.Idx) (k : Fin 4096) :
    idx_main_v1 (idx_main_v2 (idx_main_v9 i)) k = ix2 (i 0) k :=
  funext fun a => Fin.ext (by match a with | ⟨0, _⟩ => rfl | ⟨1, _⟩ => rfl)

/-- The row sum of W carried to (b, c) reads W at (c, k). -/
theorem idx_roww (i : S4096x1024.Idx) (k : Fin 4096) :
    idx_main_v4 (idx_main_v5 (idx_main_v11 i)) k = ix2 (i 1) k :=
  funext fun a => Fin.ext (by match a with | ⟨0, _⟩ => rfl | ⟨1, _⟩ => rfl)

/-- The product's left factor at (b, c), term k, is x at (b, k). -/
theorem idx_lhs (i : S4096x1024.Idx) (k : Fin 4096) : lidx_main_v6 i k = ix2 (i 0) k :=
  funext fun a => Fin.ext (by match a with | ⟨0, _⟩ => rfl | ⟨1, _⟩ => rfl)

/-- The product's right factor at (b, c), term k, is W at (c, k). -/
theorem idx_rhs (i : S4096x1024.Idx) (k : Fin 4096) : ridx_main_v6 i k = ix2 (i 1) k :=
  funext fun a => Fin.ext (by match a with | ⟨0, _⟩ => rfl | ⟨1, _⟩ => rfl)

/-! ## The reference's result is the function -/

/-- The last stage of the reference, as a function of the two arguments, is `negMeanSqDist`. -/
theorem result_eq (x0 : (⟨S4096x4096, .f32⟩ : BufTy).Contents (Elt Ideal)) (x1 : (⟨S1024x4096, .f32⟩ : BufTy).Contents (Elt Ideal)) :
    val_main_v15 (F := Ideal) x0 x1 = negMeanSqDist x0 x1 := by
  funext i
  rw [val_main_v15_apply, val_main_v14_apply, val_main_v13_apply, val_main_v12_apply, val_main_v11_apply, val_main_v10_apply,
    val_main_v9_apply, val_main_v8_apply, val_main_v7_apply, val_main_v6_apply, val_main_v5_apply, val_main_v4_apply,
    val_main_v2_apply, val_main_v1_apply]
  simp only [idx_rowx, idx_roww, idx_lhs, idx_rhs, val_main_v0_apply, val_main_v3_apply, val_main_cst_apply,
    val_main_cst_0_apply, val_main_cst_1_apply, val_main_cst_2_apply, Ideal.hostDivf_def, Ideal.hostNegf_def,
    Ideal.negf_def, Ideal.addf_def, Ideal.subf_def, Ideal.mulf_def, Ideal.ofBits_def, zero_word_add, ofBits_4096]
  rfl

end Cert.ReferenceIdeal.RefValue

end
-- ==== Proof.BlockDistance.lean ====
/-
  One grid point's block of the result is the negated mean squared distance of the block's rows.

  The kernel body, as one pure term of the two loaded blocks x₀ : [256, 4096] (256 rows of x) and x₁ : [1024, 4096]
  (all of W), read at an entry (p, q) of its [256, 1024] result:
    · the lane sum of x₀·x₀ along axis 1, kept as a column [256, 1] and broadcast along the columns, reads ∑ₖ x₀(p,k)²;
    · the lane sum of x₁·x₁ along axis 1, viewed as a row [1, 1024] and broadcast along the rows, reads ∑ₖ x₁(q,k)²;
    · the matrix product of x₀ with the TRANSPOSE of x₁, into a zero accumulator, contracts x₀'s axis 1 against the
      transpose's axis 0, so its (p, q) entry is ∑ₖ x₀(p,k) · x₁ᵀ(k,q) = ∑ₖ x₀(p,k) · x₁(q,k); the narrowing of both
      operands to bf16 before the product is the identity on extended reals;
    · the rest is pointwise: (0 - ((‖x₀ₚ‖² - 2·⟨x₀ₚ, x₁_q⟩) + ‖x₁_q‖²)) · 2⁻¹², which is the quotient of the negation
      by 4096 (the scalar law).
-/
import proofs.«119320_j10290741641835_1_alg».proof.Proof.Gen.KernelIdeal.Skeleton
import proofs.«119320_j10290741641835_1_alg».proof.Proof.Distance
import Idealize.ShloMosaic.Lib.ValueLayout
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.ValueIdx Cert.Distance

/-! ## A kept column: the two layout reads the library's list lacks -/

section Column
variable {α : Type}

/-- An `[a]` array cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The body's non-pointwise operations at an entry (p, q) -/

/-- A vector of 256 row values kept as a column and spread over the 1024 columns reads the value of row `p`. -/
theorem column_apply (v : FVec Ideal S256 .f32) (h1 : S256.ShapeCasts S256x1) (h2 : S256x1.Broadcasts S256x1024)
    (p : Fin 256) (q : Fin 1024) : broadcastTo S256x1024 (shapeCast S256x1 v h1) h2 (ix2 p q) = v (ix1 p) :=
  (broadcastTo_a1_ab_apply (shapeCast S256x1 v h1) h2 p q).trans (shapeCast_a_a1_apply v h1 p 0)

/-- A vector of 1024 values viewed as a row and spread over the 256 rows reads the value of column `q`. -/
theorem row_apply (v : FVec Ideal S1024 .f32) (h1 : S1024.ShapeCasts S1x1024) (h2 : S1x1024.Broadcasts S256x1024)
    (p : Fin 256) (q : Fin 1024) : broadcastTo S256x1024 (shapeCast S1x1024 v h1) h2 (ix2 p q) = v (ix1 q) :=
  (broadcastTo_1b_ab_apply (shapeCast S1x1024 v h1) h2 p q).trans (shapeCast_a_1a_apply v h1 0 q)

/-- The lane sum of a [256, 4096] block along axis 1, at row `p`: the sum over the 4096 lanes of that row. -/
theorem laneSum256_apply (v : FVec Ideal S256x4096 .f32) (h : S256x4096.Reduces [1] S256) (hφ : FKind.Formats .f32)
    (hacc : (0x00000000#32 : BitVec 32) = 0x00000000#32) (p : Fin 256) :
    multiReduction (F := Ideal) .add [1] S256 v 0x00000000#32 h hφ hacc (ix1 p) = ∑ k : Fin 4096, v (ix2 p k) :=
  (Ideal.multiReduction_add_single v 0x00000000#32 h hφ hacc (ix1 p)).trans
    (Finset.sum_congr rfl fun k _ => congrArg v (funext fun a => Fin.ext (by
      match a with | ⟨0, _⟩ => rfl | ⟨1, _⟩ => rfl)))

/-- The lane sum of a [1024, 4096] block along axis 1, at row `q`. -/
theorem laneSum1024_apply (v : FVec Ideal S1024x4096 .f32) (h : S1024x4096.Reduces [1] S1024) (hφ : FKind.Formats .f32)
    (hacc : (0x00000000#32 : BitVec 32) = 0x00000000#32) (q : Fin 1024) :
    multiReduction (F := Ideal) .add [1] S1024 v 0x00000000#32 h hφ hacc (ix1 q) = ∑ k : Fin 4096, v (ix2 q k) :=
  (Ideal.multiReduction_add_single v 0x00000000#32 h hφ hacc (ix1 q)).trans
    (Finset.sum_congr rfl fun k _ => congrArg v (funext fun a => Fin.ext (by
      match a with | ⟨0, _⟩ => rfl | ⟨1, _⟩ => rfl)))

/-! ## The product with the transpose -/

/-- The product's left index on its kept axis 0 is the result's row. -/
theorem lhs_prod_0 (i : S256x1024.Idx) (κ : dot_S256x4096_S4096x1024_S256x1024_1_0_0_1_n_n.contr.Idx) :
    (dot_S256x4096_S4096x1024_S256x1024_1_0_0_1_n_n.lhsIdx i κ 0).val = (i 0).val := by
  unfold DotDims.lhsIdx
  rw [dif_neg (show ¬(0 : Fin S256x4096.rank) ∈ dot_S256x4096_S4096x1024_S256x1024_1_0_0_1_n_n.lhsBatch by decide), dif_pos (show (0 : Fin S256x4096.rank) ∈ dot_S256x4096_S4096x1024_S256x1024_1_0_0_1_n_n.lhsNonContracting by decide)]
  rfl
/-- Its left index on the contracted axis 1 is the contraction position. -/
theorem lhs_prod_1 (i : S256x1024.Idx) (κ : dot_S256x4096_S4096x1024_S256x1024_1_0_0_1_n_n.contr.Idx) :
    (dot_S256x4096_S4096x1024_S256x1024_1_0_0_1_n_n.lhsIdx i κ 1).val = (κ ⟨0, by decide⟩).val :=
  dot_S256x4096_S4096x1024_S256x1024_1_0_0_1_n_n.lhsIdx_val_of_single rfl i κ
/-- The right operand is the transpose: its contracted axis is axis 0 … -/
theorem rhs_prod_0 (i : S256x1024.Idx) (κ : dot_S256x4096_S4096x1024_S256x1024_1_0_0_1_n_n.contr.Idx) :
    (dot_S256x4096_S4096x1024_S256x1024_1_0_0_1_n_n.rhsIdx i κ 0).val = (κ ⟨0, by decide⟩).val :=
  dot_S256x4096_S4096x1024_S256x1024_1_0_0_1_n_n.rhsIdx_val_of_single rfl i κ
/-- … and its kept axis 1 is the result's column. -/
theorem rhs_prod_1 (i : S256x1024.Idx) (κ : dot_S256x4096_S4096x1024_S256x1024_1_0_0_1_n_n.contr.Idx) :
    (dot_S256x4096_S4096x1024_S256x1024_1_0_0_1_n_n.rhsIdx i κ 1).val = (i 1).val := by
  unfold DotDims.rhsIdx
  rw [dif_neg (show ¬(1 : Fin S4096x1024.rank) ∈ dot_S256x4096_S4096x1024_S256x1024_1_0_0_1_n_n.rhsBatch by decide), dif_pos (show (1 : Fin S4096x1024.rank) ∈ dot_S256x4096_S4096x1024_S256x1024_1_0_0_1_n_n.rhsNonContracting by decide)]
  rfl

/-- The product of a [256, 4096] block with the transpose of a [1024, 4096] block, into the zero accumulator, at
    (p, q): ∑ₖ a(p,k) · b(q,k) — row p against ROW q of the untransposed operand. -/
theorem prodTranspose_apply (a : FVec Ideal S256x4096 .bf16) (b : FVec Ideal S1024x4096 .bf16)
    (ht : S1024x4096.Transposes [1, 0] S4096x1024) (p : Fin 256) (q : Fin 1024) :
    matmul (F := Ideal) dot_S256x4096_S4096x1024_S256x1024_1_0_0_1_n_n none a (transpose S4096x1024 [1, 0] b ht)
        (constant S256x1024 .f32 0x00000000#32) (ix2 p q)
      = ∑ k : Fin 4096, a (ix2 p k) * b (ix2 q k) := by
  simp only [matmul]
  rw [Ideal.matmul_constant_zero_apply, ← Equiv.sum_comp (ValueIdx.contrEquiv1 dot_S256x4096_S4096x1024_S256x1024_1_0_0_1_n_n 4096 rfl rfl).symm]
  refine Finset.sum_congr rfl fun k _ => ?_
  have hk := ValueIdx.contrEquiv1_symm_val dot_S256x4096_S4096x1024_S256x1024_1_0_0_1_n_n 4096 rfl rfl k
  have el : dot_S256x4096_S4096x1024_S256x1024_1_0_0_1_n_n.lhsIdx (ix2 p q) ((ValueIdx.contrEquiv1 dot_S256x4096_S4096x1024_S256x1024_1_0_0_1_n_n 4096 rfl rfl).symm k) = ix2 p k := funext fun ax => Fin.ext (by
    match ax with
    | ⟨0, _⟩ => exact lhs_prod_0 _ _
    | ⟨1, _⟩ => exact (lhs_prod_1 _ _).trans hk)
  have er : dot_S256x4096_S4096x1024_S256x1024_1_0_0_1_n_n.rhsIdx (ix2 p q) ((ValueIdx.contrEquiv1 dot_S256x4096_S4096x1024_S256x1024_1_0_0_1_n_n 4096 rfl rfl).symm k) = ix2 k q := funext fun ax => Fin.ext (by
    match ax with
    | ⟨0, _⟩ => exact (rhs_prod_0 _ _).trans hk
    | ⟨1, _⟩ => exact rhs_prod_1 _ _)
  rw [el, er, transpose_ix2_apply b ht k q]

/-! ## The body's result at an entry -/

/-- The kernel body's stored value, at entry (p, q), is the negated mean squared distance of row p of the first
    block from row q of the second. -/
theorem pay_apply (x0 : FVec Ideal S256x4096 .f32) (x1 : FVec Ideal S1024x4096 .f32) (p : Fin 256) (q : Fin 1024) :
    k0_pay1 (F := Ideal) x0 x1 (ix2 p q) = negMeanSqDist x0 x1 (ix2 p q) := by
  have hA := column_apply (multiReduction (F := Ideal) .add [1] S256 (mulf x0 x0) 0x00000000#32 reduces_S256x4096_S256 (.inl rfl) rfl)
    shapeCasts_S256_S256x1 broadcasts_S256x1_S256x1024 p q
  rw [laneSum256_apply (mulf x0 x0) reduces_S256x4096_S256 (.inl rfl) rfl p] at hA
  have hB := row_apply (multiReduction (F := Ideal) .add [1] S1024 (mulf x1 x1) 0x00000000#32 reduces_S1024x4096_S1024 (.inl rfl) rfl)
    shapeCasts_S1024_S1x1024 broadcasts_S1x1024_S256x1024 p q
  rw [laneSum1024_apply (mulf x1 x1) reduces_S1024x4096_S1024 (.inl rfl) rfl q] at hB
  have hC := prodTranspose_apply (truncf .bf16 x0 bitsLt_bf16_f32) (truncf .bf16 x1 bitsLt_bf16_f32)
    transposes_S1024x4096_p1_0_S4096x1024 p q
  refine Eq.trans ?_ (zero_sub_mul_inv4096 (sqDist x0 x1 p q))
  unfold k0_pay1
  show (Ideal.ofBits .f32 0x00000000#32 - ((_ - Ideal.ofBits .f32 0x40000000#32 * _) + _)) * Ideal.ofBits .f32 0x39800000#32 = _
  rw [hA, hB, hC]
  rfl

end Cert.KernelIdeal.BlockValue

end
-- ==== Proof.ArrayDistance.lean ====
/-
  From the sixteen blocks to the whole array.

  The grid has 16 points; point t reads rows 256·t … 256·t + 255 of x (block index (t, 0) of a [256, 4096] window),
  all of W (block index (0, 0) of a [1024, 4096] window, the same at every point) and writes rows 256·t … 256·t + 255
  of the result (block index (t, 0) of a [256, 1024] window). An entry of the result depends on one row of x and one
  row of W only, so what point t writes back — the negated mean squared distance of its 256 rows of x from the rows
  of W — is rows 256·t … 256·t + 255 of the negated mean squared distance of ALL of x from W. Every row r of the
  result lies in the block of point r / 256, so the blocks cover the array and it ends holding that one function.
-/
import proofs.«119320_j10290741641835_1_alg».proof.Proof.Gen.KernelIdeal.Value
import proofs.«119320_j10290741641835_1_alg».proof.Proof.BlockDistance

noncomputable section

namespace Cert.KernelIdeal.ArrayValue

open Cert.KernelIdeal Cert.KernelIdeal.Gen Idealize.ShloMosaic Idealize.ShloMosaic.TcCoe Idealize.SL.Sem
open Idealize.ShloMosaic.ValueIdx Cert.Distance
open Idealize.ShloMosaic.Pipeline (Dat)

variable (m : (ℓ : Loc nD τ sig) → Buf (Elt Ideal) ℓ) (ρ : Dev nD → PrngReg)

/-- The body loads and stores through rectangles at offset (0, 0): whole blocks. -/
theorem origin : (![0, 0] : Fin 2 → Nat) = fun _ => 0 := funext fun a => by fin_cases a <;> rfl

/-- The three index maps, decided over the 16 points: x's and the result's blocks are the t-th block of rows, W's is
    always its one block. -/
theorem blockIndex : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every one of the 16 row blocks of the result is some point's. -/
theorem blockOnto : ∀ b : Fin 16, ∃ t : Fin cfg0.N, win0_2.index t = ![b.val, 0] :=
  (by decide +kernel : ∀ b : Fin 16, ∃ t : Fin grid0.N, win0_2.index t = ![b.val, 0])

/-- One entry, over plain variables: if row p of a 256-row block is row b of the whole x, and row q of the second
    block is row c of W, the body's value at (p, q) is the whole result's entry (b, c). -/
theorem entry_of_rows (X : S4096x4096.Idx → EReal) (W : S1024x4096.Idx → EReal)
    (x0 : FVec Ideal S256x4096 .f32) (x1 : FVec Ideal S1024x4096 .f32)
    (p : Fin 256) (q : Fin 1024) (b : Fin 4096) (c : Fin 1024)
    (hx : ∀ k : Fin 4096, x0 (ix2 p k) = X (ix2 b k)) (hW : ∀ k : Fin 4096, x1 (ix2 q k) = W (ix2 c k)) :
    k0_pay1 (F := Ideal) x0 x1 (ix2 p q) = negMeanSqDist X W (ix2 b c) :=
  (BlockValue.pay_apply x0 x1 p q).trans (negMeanSqDist_congr x0 x1 X W p q b c hx hW)

/-- WHAT POINT `t` WRITES BACK is block `t` of the negated mean squared distance of the two argument arrays. -/
theorem flushed_eq (c : Dev nD) (t : Fin cfg0.N) :
    (dats m 0 c).flushed 2 t
      = ((cfg0.win 2).blk t).view.read (Elt Ideal) (negMeanSqDist (V m c main_arg0) (V m c main_arg1)) := by
  rw [Value.flushed2]
  unfold out0_2
  rw [View.canon_unit_zero origin]
  simp only [View.ld_unit_zero (S := S256x4096) origin, View.ld_unit_zero (S := S1024x4096) origin]
  obtain ⟨e0, e1, e2, e3, e4, e5⟩ := blockIndex t
  have ht : t.val < 16 := lt_of_lt_of_eq t.isLt N_0
  funext j
  have hj0 : (j 0).val < 256 := (j 0).isLt
  have hj1 : (j 1).val < 1024 := (j 1).isLt
  show k0_pay1 (F := Ideal) (iblk m c 0 t) (iblk m c 1 t) j
    = negMeanSqDist (V m c main_arg0) (V m c main_arg1) (((cfg0.win 2).blk t).view.emb j)
  refine ((congrArg (k0_pay1 (F := Ideal) (iblk m c 0 t) (iblk m c 1 t)) (eq_ix2 j)).trans
    (entry_of_rows (V m c main_arg0) (V m c main_arg1) (iblk m c 0 t) (iblk m c 1 t) (j 0) (j 1)
      ⟨t.val * 256 + (j 0).val, by omega⟩ (j 1) ?_ ?_)).trans
    (congrArg (negMeanSqDist (V m c main_arg0) (V m c main_arg1)) ?_)
  · intro k
    show V m c main_arg0 (((cfg0.win 0).blk t).view.emb (ix2 (j 0) k)) = V m c main_arg0 _
    refine congrArg (V m c main_arg0) (funext fun a => Fin.ext ?_)
    match a with
    | ⟨0, _⟩ => show win0_0.index t (0 : Fin 2) * 256 + 1 * (j 0).val = t.val * 256 + (j 0).val; omega
    | ⟨1, _⟩ => show win0_0.index t (1 : Fin 2) * 4096 + 1 * k.val = k.val; omega
  · intro k
    show V m c main_arg1 (((cfg0.win 1).blk t).view.emb (ix2 (j 1) k)) = V m c main_arg1 _
    refine congrArg (V m c main_arg1) (funext fun a => Fin.ext ?_)
    match a with
    | ⟨0, _⟩ => show win0_1.index t (0 : Fin 2) * 1024 + 1 * (j 1).val = (j 1).val; omega
    | ⟨1, _⟩ => show win0_1.index t (1 : Fin 2) * 4096 + 1 * k.val = k.val; omega
  · funext a; apply Fin.ext
    match a with
    | ⟨0, _⟩ => show t.val * 256 + (j 0).val = win0_2.index t (0 : Fin 2) * 256 + 1 * (j 0).val; omega
    | ⟨1, _⟩ => show (j 1).val = win0_2.index t (1 : Fin 2) * 1024 + 1 * (j 1).val; omega

/-- An index of the result is in point `t`'s block iff each coordinate is in the block's range on its axis. -/
theorem mem_block (t : Fin cfg0.N) (i : S4096x1024.Idx) :
    i ∈ ((cfg0.win 2).blk t).view.set ↔ ∀ a : Fin 2, win0_2.index t a * S256x1024.size a ≤ (i a).val ∧ (i a).val < win0_2.index t a * S256x1024.size a + S256x1024.size a := by
  show i ∈ ((View.whole main_v0).slice (win0_2.rect t)).set ↔ _
  rw [View.set_slice_whole, Rect.mem_set_unit]
  exact Iff.rfl

/-- Row r of the result lies in the block of the point whose block index is r / 256. -/
theorem covered (i : S4096x1024.Idx) :
    ∃ t : Fin cfg0.N, (cfg0.win 2).flush t = true ∧ i ∈ ((cfg0.win 2).blk t).view.set := by
  have hi0 : (i 0).val < 4096 := (i 0).isLt
  have hi1 : (i 1).val < 1024 := (i 1).isLt
  obtain ⟨t, ht⟩ := blockOnto ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 1024 ≤ (i 1).val ∧ (i 1).val < win0_2.index t (1 : Fin 2) * 1024 + 1024; omega

/-- THE ARRAY after the run is the negated mean squared distance of the argument arrays as launched. -/
theorem final (c : Dev nD) :
    (dats m 0 c).arrAt 2 cfg0.N
      = negMeanSqDist (m ((c : Thread nD τ).loc main_arg0)) (m ((c : Thread nD τ).loc main_arg1)) :=
  (dats m 0 c).arrAt_eq_of_cover 2 (negMeanSqDist (V m c main_arg0) (V m c main_arg1))
    (fun t _ => flushed_eq m c t) covered

/-- The kernel's run with the result named: it ends holding the negated mean squared distance, arguments unchanged. -/
theorem run : θ_run defs (onTc (τ := τ) (main (F := Ideal))) ⟨m, fun _ => 0, ρ⟩ fun r => ∀ c : Dev nD,
      r.2.mem ((c : Thread nD τ).loc main_v0)
        = negMeanSqDist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.lean ====
/-
  The negated mean squared distance kernel against its reference: the five claims.

  Both programs compute, for x : [4096, 4096] and W : [1024, 4096], the array whose entry (b, c) is
      -( ‖x_b‖² - 2 · ⟨x_b, W_c⟩ + ‖W_c‖² ) / 4096
  over the extended reals (Proof/Distance.lean). The kernel does it 256 rows of x at a time on a grid of 16 points:
  per point the lane sums of the squares of its two blocks, the product of the x block with the transpose of W, and
  pointwise (0 - (…)) · 2⁻¹² (Proof/BlockDistance.lean); the sixteen blocks of rows tile the result
  (Proof/ArrayDistance.lean). The reference does it whole, with a division by 4096 (Proof/RefDistance.lean). The two
  agree on every input, finite or not: the only laws used are 0 + s = s, 0 - y = -y and y / 4096 = y · (1/4096), all of
  which hold at the infinities, and 2⁻¹² is the rational 1/4096 exactly. So the precondition is never opened.

  The kernel's idealization rewrote no operation, so `preserves` states nothing; the frames are the generated ones
  (the reference's is its run with the result dropped).
-/
import proofs.«119320_j10290741641835_1_alg».proof.Defs
import proofs.«119320_j10290741641835_1_alg».proof.Proof.Gen.Kernel
import proofs.«119320_j10290741641835_1_alg».proof.Proof.Gen.Kernel.Skeleton
import proofs.«119320_j10290741641835_1_alg».proof.Proof.Gen.Kernel.Launch
import proofs.«119320_j10290741641835_1_alg».proof.Proof.Gen.Kernel.Points
import proofs.«119320_j10290741641835_1_alg».proof.Proof.Gen.Kernel.Frame
import proofs.«119320_j10290741641835_1_alg».proof.Proof.Gen.KernelIdeal
import proofs.«119320_j10290741641835_1_alg».proof.Proof.Gen.KernelIdeal.Skeleton
import proofs.«119320_j10290741641835_1_alg».proof.Proof.Gen.KernelIdeal.Launch
import proofs.«119320_j10290741641835_1_alg».proof.Proof.Gen.KernelIdeal.Points
import proofs.«119320_j10290741641835_1_alg».proof.Proof.Gen.KernelIdeal.Frame
import proofs.«119320_j10290741641835_1_alg».proof.Proof.Gen.ReferenceIdeal
import proofs.«119320_j10290741641835_1_alg».proof.Proof.Gen.Pre_finite_inputs
import proofs.«119320_j10290741641835_1_alg».proof.Proof.Gen.KernelIdeal.Value
import proofs.«119320_j10290741641835_1_alg».proof.Proof.Gen.ReferenceIdeal.Run
import proofs.«119320_j10290741641835_1_alg».proof.Proof.Gen.ReferenceIdeal.Read
import proofs.«119320_j10290741641835_1_alg».proof.Proof.Distance
import proofs.«119320_j10290741641835_1_alg».proof.Proof.RefDistance
import proofs.«119320_j10290741641835_1_alg».proof.Proof.BlockDistance
import proofs.«119320_j10290741641835_1_alg».proof.Proof.ArrayDistance
import Idealize.ShloMosaic.Adequacy
import Idealize.ShloMosaic.Init

noncomputable section

namespace Cert.Proof

open Idealize.ShloMosaic Idealize.ShloMosaic.TcCoe Idealize.SL.Sem

/-- The word-level kernel runs and leaves x and W as they were: the generated frame. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments: its generated run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals: nothing to preserve. -/
theorem preserves : Cert.preserves_Kernel_KernelIdeal := trivial

/-- From memories that agree on x and W, the kernel's result array (its sixteen blocks assembled) and the
    reference's result (its last stage) are both the negated mean squared distance of x and W. -/
theorem algebraic : Cert.algebraic_KernelIdeal_ReferenceIdeal := by
  intro m ρ m' ρ' _ hagree
  refine ⟨fun c => Cert.Distance.negMeanSqDist
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
